-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S600000x128 : Shape := ⟨2, ![600000, 128]⟩
abbrev S600000 : Shape := ⟨1, ![600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S600000x128 : S_.BroadcastsInDim S600000x128 (![] : Fin 0 → Fin S600000x128.rank)
  reducesTo_S600000x128_S_d0_1 : S600000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S128x128 .f32) (main_arg7 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S100000x128 .f32) (main_arg1 : FVec F S600000x128 .f32) (main_arg2 : IVec S600000 32) (main_arg3 : IVec S600000 32) (main_arg4 : FVec F S128x128 .f32) (main_arg5 : FVec F S128 .f32) (main_arg6 : FVec F S128x128 .f32) (main_arg7 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S600000x128 .f32 := Host.absf main_arg1
  let main_cst_0 : FVec F S_ .f32 := constant S_ .f32 0x7F800000#32
  let main_v5 : FVec F S600000x128 .f32 := broadcastInDim S600000x128 ![] bcast_S_S600000x128 main_cst_0
  let main_v6 : IVec S600000x128 1 := cmpf .olt main_v4 main_v5
  let main_c_1 : IVec S_ 1 := constantI S_ 1 1#1
  let main_v7 : IVec S_ 1 := (fun x v => Host.reduce IntOp.andi x v reducesTo_S600000x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_v13 main_v16
-- ==== Kernel.lean ====
abbrev S100000x128 : Shape := ⟨2, ![100000, 128]⟩
abbrev S600000x128 : Shape := ⟨2, ![600000, 128]⟩
abbrev S600000 : Shape := ⟨1, ![600000]⟩
abbrev S128x128 : Shape := ⟨2, ![128, 128]⟩
abbrev S128 : Shape := ⟨1, ![128]⟩
abbrev S_ : Shape := ⟨0, ![]⟩
abbrev S600000x1 : Shape := ⟨2, ![600000, 1]⟩
abbrev S1x128 : Shape := ⟨2, ![1, 128]⟩
abbrev S4000x128 : Shape := ⟨2, ![4000, 128]⟩

abbrev nBuf : Space → Nat
  | .hbm => 25
  | .vmem => 10
  | .smem => 0
  | _ => 0

abbrev bufTy : (tb : Table) → Fin (tcTables nBuf tb) → BufTy
  | .hbm, ⟨0, _⟩ => ⟨S100000x128, .f32⟩
  | .hbm, ⟨1, _⟩ => ⟨S600000x128, .f32⟩
  | .hbm, ⟨2, _⟩ => ⟨S600000, .i32⟩
  | .hbm, ⟨3, _⟩ => ⟨S600000, .i32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S_, .i32⟩
  | .hbm, ⟨9, _⟩ => ⟨S600000, .i32⟩
  | .hbm, ⟨10, _⟩ => ⟨S600000, .i1⟩
  | .hbm, ⟨11, _⟩ => ⟨S_, .i32⟩
  | .hbm, ⟨12, _⟩ => ⟨S600000, .i32⟩
  | .hbm, ⟨13, _⟩ => ⟨S600000, .i32⟩
  | .hbm, ⟨14, _⟩ => ⟨S600000, .i32⟩
  | .hbm, ⟨15, _⟩ => ⟨S600000x1, .i32⟩
  | .hbm, ⟨16, _⟩ => ⟨S600000x128, .f32⟩
  | .hbm, ⟨17, _⟩ => ⟨S600000x128, .f32⟩
  | .hbm, ⟨18, _⟩ => ⟨S_, .f32⟩
  | .hbm, ⟨19, _⟩ => ⟨S100000x128, .f32⟩
  | .hbm, ⟨20, _⟩ => ⟨S600000x1, .i32⟩
  | .hbm, ⟨21, _⟩ => ⟨S100000x128, .f32⟩
  | .hbm, ⟨22, _⟩ => ⟨S1x128, .f32⟩
  | .hbm, ⟨23, _⟩ => ⟨S1x128, .f32⟩
  | .hbm, ⟨24, _⟩ => ⟨S100000x128, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S4000x128, .f32⟩
  | .local _ .vmem, ⟨9, _⟩ => ⟨S4000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bcast_S_S600000 : S_.BroadcastsInDim S600000 (![] : Fin 0 → Fin S600000.rank)
  bcast_S600000_S600000x1_0 : S600000.BroadcastsInDim S600000x1 (![0] : Fin 1 → Fin S600000x1.rank)
  bcast_S_S100000x128 : S_.BroadcastsInDim S100000x128 (![] : Fin 0 → Fin S100000x128.rank)
  shapeCasts_S128_S1x128 : S128.ShapeCasts S1x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  dot_S4000x128_S128x128_S4000x128_1_0_0_1_n_n_wf : DotDims.WF S4000x128 S128x128 S4000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S100000x128.size a
  hwx0_1 : ∀ i : grid0.Coords, EltTy.bits .f32 = 32 ∨ (Rect.block (s := S100000x128) S4000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4000x128.size a ≤ S100000x128.size a
  hwx0_6 : ∀ i : grid0.Coords, EltTy.bits .f32 = 32 ∨ (Rect.block (s := S100000x128) S4000x128.size (cc0_transform_6 i) (hinb0_6 i)).WholeWords (EltTy.packing .f32)

variable [Facts₀]

def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v12) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v13) S4000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S100000x128 : Shape := ⟨2, ![100000, 128]⟩
abbrev S600000x128 : Shape := ⟨2, ![600000, 128]⟩
abbrev S600000 : Shape := ⟨1, ![600000]⟩
abbrev S128x128 : Shape := ⟨2, ![128, 128]⟩
abbrev S128 : Shape := ⟨1, ![128]⟩
abbrev S_ : Shape := ⟨0, ![]⟩
abbrev S600000x1 : Shape := ⟨2, ![600000, 1]⟩
abbrev S1x128 : Shape := ⟨2, ![1, 128]⟩

abbrev nBuf : Space → Nat
  | .hbm => 41
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S600000x128, .f32⟩
  | .hbm, ⟨2, _⟩ => ⟨S600000, .i32⟩
  | .hbm, ⟨3, _⟩ => ⟨S600000, .i32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S_, .i32⟩
  | .hbm, ⟨9, _⟩ => ⟨S600000, .i32⟩
  | .hbm, ⟨10, _⟩ => ⟨S600000, .i1⟩
  | .hbm, ⟨11, _⟩ => ⟨S_, .i32⟩
  | .hbm, ⟨12, _⟩ => ⟨S600000, .i32⟩
  | .hbm, ⟨13, _⟩ => ⟨S600000, .i32⟩
  | .hbm, ⟨14, _⟩ => ⟨S600000, .i32⟩
  | .hbm, ⟨15, _⟩ => ⟨S600000x1, .i32⟩
  | .hbm, ⟨16, _⟩ => ⟨S600000x128, .f32⟩
  | .hbm, ⟨17, _⟩ => ⟨S600000x128, .f32⟩
  | .hbm, ⟨18, _⟩ => ⟨S_, .f32⟩
  | .hbm, ⟨19, _⟩ => ⟨S100000x128, .f32⟩
  | .hbm, ⟨20, _⟩ => ⟨S600000x1, .i32⟩
  | .hbm, ⟨21, _⟩ => ⟨S100000x128, .f32⟩
  | .hbm, ⟨22, _⟩ => ⟨S_, .f32⟩
  | .hbm, ⟨23, _⟩ => ⟨S100000x128, .f32⟩
  | .hbm, ⟨24, _⟩ => ⟨S100000x128, .f32⟩
  | .hbm, ⟨25, _⟩ => ⟨S100000x128, .f32⟩
  | .hbm, ⟨26, _⟩ => ⟨S100000x128, .f32⟩
  | .hbm, ⟨27, _⟩ => ⟨S1x128, .f32⟩
  | .hbm, ⟨28, _⟩ => ⟨S100000x128, .f32⟩
  | .hbm, ⟨29, _⟩ => ⟨S100000x128, .f32⟩
  | .hbm, ⟨30, _⟩ => ⟨S_, .f32⟩
  | .hbm, ⟨31, _⟩ => ⟨S100000x128, .f32⟩
  | .hbm, ⟨32, _⟩ => ⟨S100000x128, .i1⟩
  | .hbm, ⟨33, _⟩ => ⟨S_, .f32⟩
  | .hbm, ⟨34, _⟩ => ⟨S100000x128, .f32⟩
  | .hbm, ⟨35, _⟩ => ⟨S100000x128, .f32⟩
  | .hbm, ⟨36, _⟩ => ⟨S100000x128, .f32⟩
  | .hbm, ⟨37, _⟩ => ⟨S100000x128, .f32⟩
  | .hbm, ⟨38, _⟩ => ⟨S1x128, .f32⟩
  | .hbm, ⟨39, _⟩ => ⟨S100000x128, .f32⟩
  | .hbm, ⟨40, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_2 : Ref sig .tc := ⟨.hbm, 30, rfl⟩
abbrev main_v18 : Ref sig .tc := ⟨.hbm, 31, rfl⟩
abbrev main_v19 : Ref sig .tc := ⟨.hbm, 32, rfl⟩
abbrev main_cst_3 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]

class Facts₀ : Prop where
  bcast_S_S600000 : S_.BroadcastsInDim S600000 (![] : Fin 0 → Fin S600000.rank)
  bcast_S600000_S600000x1_0 : S600000.BroadcastsInDim S600000x1 (![0] : Fin 1 → Fin S600000x1.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  dot_S100000x128_S128x128_S100000x128_1_0_0_1_n_n_wf : DotDims.WF S100000x128 S128x128 S100000x128 [1] [0] [0] [1] [] []

variable [Facts₀]

def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.Layers.lean ====
/-
  The node update of a graph-isomorphism layer, as ONE function of the argument arrays, index by index, on the
  extended reals.

  For a node `r` with feature row `x r` and neighbour aggregate `a r` (the sum, over the edges that end at `r`, of the
  source node's features plus the edge's features), the layer computes
      h r      = 2 · x r + a r
      out r    = leaky (h r · W₁ + b₁) · W₂ + b₂
  where `leaky y` is `y` for `y > 0` and `slope · y` otherwise, and every product with a weight matrix is the plain sum
  over the 128 hidden coordinates. Each output row depends on its own input row only, which is why a kernel may compute
  it in tiles of rows. The constants `2`, `0` and the slope stay the binary32 words the programs spell: the same word
  stands on both sides, so none is ever evaluated.
-/
import Idealize.ShloMosaic.PureOps.Ideal
import Idealize.ShloMosaic.Lib.ValueIdx

noncomputable section

open scoped BigOperators

namespace Cert.NodeUpdate

open Idealize.ShloMosaic Idealize.ShloMosaic.ValueIdx

/-- The word of `2.0`, read at the extended reals. -/
abbrev two : EReal := Ideal.ofBits .f32 0x40000000#32
/-- The word of `0.0`, read at the extended reals. -/
abbrev zero : EReal := Ideal.ofBits .f32 0x00000000#32
/-- The word of the leaky unit's slope (the binary32 nearest to one hundredth), read at the extended reals. -/
abbrev slope : EReal := Ideal.ofBits .f32 0x3C23D70A#32

/-- The leaky rectifier on one extended real: `y` where `y > 0`, else `slope · y`. -/
def leaky (y : EReal) : EReal := Scalar.select (Ideal.cmp .ogt y zero) y (slope * y)

/-- One affine layer of width 128 on a row `u`, at output coordinate `q`: `(u · W) q + b q`. -/
def affine (W : (⟨2, ![128, 128]⟩ : Shape).Idx → EReal) (b : Fin 128 → EReal) (u : Fin 128 → EReal) (q : Fin 128) : EReal :=
  (∑ k : Fin 128, u k * W (ix2 k q)) + b q

/-- The two-layer perceptron on a row: affine, leaky, affine. -/
def perceptron (W₁ : (⟨2, ![128, 128]⟩ : Shape).Idx → EReal) (b₁ : Fin 128 → EReal)
    (W₂ : (⟨2, ![128, 128]⟩ : Shape).Idx → EReal) (b₂ : Fin 128 → EReal) (u : Fin 128 → EReal) (q : Fin 128) : EReal :=
  affine W₂ b₂ (fun k => leaky (affine W₁ b₁ u k)) q

/-- Row `r` of `2 · x + a` for two arrays of `n` rows of 128. -/
def combine {n : Nat} (x a : (⟨2, ![n, 128]⟩ : Shape).Idx → EReal) (r : Fin n) (k : Fin 128) : EReal :=
  two * x (ix2 r k) + a (ix2 r k)

/-- THE NODE UPDATE: entry `(r, q)` of the result is the perceptron of row `r` of `2 · x + a`, at coordinate `q`. -/
def update {n : Nat} (x a : (⟨2, ![n, 128]⟩ : Shape).Idx → EReal)
    (W₁ : (⟨2, ![128, 128]⟩ : Shape).Idx → EReal) (b₁ : Fin 128 → EReal)
    (W₂ : (⟨2, ![128, 128]⟩ : Shape).Idx → EReal) (b₂ : Fin 128 → EReal) : (⟨2, ![n, 128]⟩ : Shape).Idx → EReal :=
  fun i => perceptron W₁ b₁ W₂ b₂ (combine x a (i 0)) (i 1)

/-- The update at coordinates. -/
theorem update_ix2 {n : Nat} (x a : (⟨2, ![n, 128]⟩ : Shape).Idx → EReal)
    (W₁ : (⟨2, ![128, 128]⟩ : Shape).Idx → EReal) (b₁ : Fin 128 → EReal)
    (W₂ : (⟨2, ![128, 128]⟩ : Shape).Idx → EReal) (b₂ : Fin 128 → EReal) (r : Fin n) (q : Fin 128) :
    update x a W₁ b₁ W₂ b₂ (ix2 r q) = perceptron W₁ b₁ W₂ b₂ (combine x a r) q := rfl

/-- The perceptron depends on its row only through the row's entries, and on the weights only through theirs. -/
theorem perceptron_congr {W₁ W₁' : (⟨2, ![128, 128]⟩ : Shape).Idx → EReal} {b₁ b₁' : Fin 128 → EReal}
    {W₂ W₂' : (⟨2, ![128, 128]⟩ : Shape).Idx → EReal} {b₂ b₂' : Fin 128 → EReal} {u u' : Fin 128 → EReal} {q q' : Fin 128}
    (hW₁ : ∀ i, W₁ i = W₁' i) (hb₁ : ∀ k, b₁ k = b₁' k) (hW₂ : ∀ i, W₂ i = W₂' i) (hb₂ : ∀ k, b₂ k = b₂' k)
    (hu : ∀ k, u k = u' k) (hq : q = q') :
    perceptron W₁ b₁ W₂ b₂ u q = perceptron W₁' b₁' W₂' b₂' u' q' := by
  obtain rfl : W₁ = W₁' := funext hW₁
  obtain rfl : b₁ = b₁' := funext hb₁
  obtain rfl : W₂ = W₂' := funext hW₂
  obtain rfl : b₂ = b₂' := funext hb₂
  obtain rfl : u = u' := funext hu
  rw [hq]

end Cert.NodeUpdate

end
-- ==== Proof.ReferenceLayers.lean ====
/-
  The reference's result is the node update of its arguments.

  The reference computes the neighbour aggregate `a` (gather of source rows, plus edge features, summed into the
  destination rows), then `2 · x + a`, then two whole-array matrix products with bias and a leaky unit between them.
  Read at an entry `(r, q)`, each matrix product is the sum over the hidden coordinate `k` of row `r` of the left
  operand at `k` times the weight at `(k, q)`, and each bias is the vector's `q`-th entry whatever the row. So entry
  `(r, q)` is the perceptron of row `r` of `2 · x + a` at `q`: the node update. The aggregate itself is never opened:
  it enters only as an array of the right shape.
-/
import proofs.«106340_j20005957664841_1_alg».proof.Proof.Gen.ReferenceIdeal.Read
import proofs.«106340_j20005957664841_1_alg».proof.Proof.Layers

noncomputable section

open scoped BigOperators

namespace Cert.ReferenceIdeal.Layers

open Cert.ReferenceIdeal Cert.ReferenceIdeal.Gen Cert.ReferenceIdeal.Read Idealize.ShloMosaic Idealize.ShloMosaic.ValueIdx
open Cert.NodeUpdate

variable (x0 : (⟨S100000x128, .f32⟩ : BufTy).Contents (Elt Ideal)) (x1 : (⟨S600000x128, .f32⟩ : BufTy).Contents (Elt Ideal))
  (x2 x3 : (⟨S600000, .i32⟩ : BufTy).Contents (Elt Ideal))
  (x4 : (⟨S128x128, .f32⟩ : BufTy).Contents (Elt Ideal)) (x5 : (⟨S128, .f32⟩ : BufTy).Contents (Elt Ideal))
  (x6 : (⟨S128x128, .f32⟩ : BufTy).Contents (Elt Ideal)) (x7 : (⟨S128, .f32⟩ : BufTy).Contents (Elt Ideal))

/-! ## Where each operation reads its operands, at coordinates -/

/-- The first product's left operand at output `(r, k)` and hidden coordinate `k'` is entry `(r, k')`. -/
theorem left_first (r : Fin 100000) (k k' : Fin 128) : lidx_main_v14 (ix2 r k) k' = ix2 r k' :=
  funext fun a => Fin.ext (by match a with | ⟨0, _⟩ => rfl | ⟨1, _⟩ => rfl)
/-- Its right operand there is the weight's entry `(k', k)`. -/
theorem right_first (r : Fin 100000) (k k' : Fin 128) : ridx_main_v14 (ix2 r k) k' = ix2 k' k :=
  funext fun a => Fin.ext (by match a with | ⟨0, _⟩ => rfl | ⟨1, _⟩ => rfl)
/-- The second product reads the same way. -/
theorem left_second (r : Fin 100000) (q k : Fin 128) : lidx_main_v23 (ix2 r q) k = ix2 r k :=
  funext fun a => Fin.ext (by match a with | ⟨0, _⟩ => rfl | ⟨1, _⟩ => rfl)
theorem right_second (r : Fin 100000) (q k : Fin 128) : ridx_main_v23 (ix2 r q) k = ix2 k q :=
  funext fun a => Fin.ext (by match a with | ⟨0, _⟩ => rfl | ⟨1, _⟩ => rfl)
/-- A bias vector laid out as one row and repeated over the rows reads, at `(r, k)`, its `k`-th entry. -/
theorem bias_first (r : Fin 100000) (k : Fin 128) : idx_main_v15 (idx_main_v16 (ix2 r k)) = ix1 k :=
  funext fun a => Fin.ext (by match a with | ⟨0, _⟩ => rfl)
theorem bias_second (r : Fin 100000) (q : Fin 128) : idx_main_v24 (idx_main_v25 (ix2 r q)) = ix1 q :=
  funext fun a => Fin.ext (by match a with | ⟨0, _⟩ => rfl)

/-! ## The stages at coordinates -/

/-- `2 · x + a` at `(r, k)`, the aggregate `a` being the scatter-add stage. -/
theorem combined (r : Fin 100000) (k : Fin 128) :
    val_main_v13 (F := Ideal) x0 x1 x2 x3 (ix2 r k)
      = combine (n := 100000) x0 (val_main_v10 (F := Ideal) x0 x1 x2 x3) r k := by
  rw [val_main_v13_apply, val_main_v12_apply, val_main_v11_apply, val_main_cst_1_apply]
  rfl

/-- The first affine layer at `(r, k)`. -/
theorem first_layer (r : Fin 100000) (k : Fin 128) :
    val_main_v17 (F := Ideal) x0 x1 x2 x3 x4 x5 (ix2 r k)
      = affine x4 (fun j => x5 (ix1 j)) (combine (n := 100000) x0 (val_main_v10 (F := Ideal) x0 x1 x2 x3) r) k := by
  rw [val_main_v17_apply, val_main_v14_apply, val_main_v16_apply, val_main_v15_apply, affine]
  simp only [left_first, right_first, bias_first, combined]
  rfl

/-- The leaky unit at `(r, k)`. -/
theorem activated (r : Fin 100000) (k : Fin 128) :
    val_main_v22 (F := Ideal) x0 x1 x2 x3 x4 x5 (ix2 r k)
      = leaky (val_main_v17 (F := Ideal) x0 x1 x2 x3 x4 x5 (ix2 r k)) := by
  rw [val_main_v22_apply, val_main_v19_apply, val_main_v21_apply, val_main_v18_apply, val_main_v20_apply,
    val_main_cst_2_apply, val_main_cst_3_apply]
  rfl

/-- THE REFERENCE'S LAST STAGE is the node update of the arguments, the aggregate being its scatter-add stage. -/
theorem result_eq_update :
    val_main_v26 (F := Ideal) x0 x1 x2 x3 x4 x5 x6 x7
      = update (n := 100000) x0 (val_main_v10 (F := Ideal) x0 x1 x2 x3) x4 (fun j => x5 (ix1 j)) x6 (fun j => x7 (ix1 j)) := by
  funext i
  obtain ⟨r, q, rfl⟩ : ∃ (r : Fin 100000) (q : Fin 128), i = ix2 r q := ⟨i 0, i 1, eq_ix2 i⟩
  rw [update_ix2, val_main_v26_apply, val_main_v23_apply, val_main_v25_apply, val_main_v24_apply, perceptron, affine]
  simp only [left_second, right_second, bias_second, activated, first_layer]
  rfl

end Cert.ReferenceIdeal.Layers

end
-- ==== Proof.TileProduct.lean ====
/-
  A tile's matrix product read at an entry.

  The kernel multiplies a tile of 4000 rows of width 128 by a 128 × 128 weight, contracting the tile's second axis with
  the weight's first, into a zero accumulator. On the extended reals, entry `(p, q)` of the product is therefore the
  plain sum over the hidden coordinate `k` of the tile's entry `(p, k)` times the weight's entry `(k, q)`: there is
  no rounding and no order of accumulation left, and `0 + s = s`. The contraction has one axis, of extent 128, so its
  index set is `Fin 128` through the one-axis bijection; the operand indices at an output index are read off the
  dimension numbers axis by axis.
-/
import proofs.«106340_j20005957664841_1_alg».proof.Proof.Gen.KernelIdeal
import Idealize.ShloMosaic.Lib.ValueIdx
import Idealize.ShloMosaic.PureOps.Ideal.Laws

noncomputable section

open scoped BigOperators

namespace Cert.KernelIdeal.TileProduct

open Cert.KernelIdeal Cert.KernelIdeal.Gen Idealize.ShloMosaic Idealize.ShloMosaic.ValueIdx

/-- The left operand's row coordinate is the output's row. -/
theorem lhs_row (i : S4000x128.Idx) (q : dot_S4000x128_S128x128_S4000x128_1_0_0_1_n_n.contr.Idx) :
    (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
/-- Its column coordinate is the contraction's. -/
theorem lhs_col (i : S4000x128.Idx) (q : dot_S4000x128_S128x128_S4000x128_1_0_0_1_n_n.contr.Idx) :
    (dot_S4000x128_S128x128_S4000x128_1_0_0_1_n_n.lhsIdx i q 1).val = (q ⟨0, by decide⟩).val :=
  dot_S4000x128_S128x128_S4000x128_1_0_0_1_n_n.lhsIdx_val_of_single rfl i q
/-- The right operand's row coordinate is the contraction's. -/
theorem rhs_row (i : S4000x128.Idx) (q : dot_S4000x128_S128x128_S4000x128_1_0_0_1_n_n.contr.Idx) :
    (dot_S4000x128_S128x128_S4000x128_1_0_0_1_n_n.rhsIdx i q 0).val = (q ⟨0, by decide⟩).val :=
  dot_S4000x128_S128x128_S4000x128_1_0_0_1_n_n.rhsIdx_val_of_single rfl i q
/-- Its column coordinate is the output's column. -/
theorem rhs_col (i : S4000x128.Idx) (q : dot_S4000x128_S128x128_S4000x128_1_0_0_1_n_n.contr.Idx) :
    (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- THE TILE'S PRODUCT AT AN ENTRY: into the zero accumulator, entry `(p, q)` is `∑ k, l (p, k) · w (k, q)`, whatever the
    operands' float formats (a change of format is the identity on the extended reals). -/
theorem product_apply {φ₁ φ₂ : FTy} (l : FVec Ideal S4000x128 φ₁) (w : FVec Ideal S128x128 φ₂) (p : Fin 4000) (q : Fin 128) :
    matmul dot_S4000x128_S128x128_S4000x128_1_0_0_1_n_n none l w (constant S4000x128 .f32 0x00000000#32) (ix2 p q)
      = ∑ k : Fin 128, l (ix2 p k) * w (ix2 k q) := by
  simp only [matmul]
  rw [Ideal.matmul_constant_zero_apply, ← Equiv.sum_comp (contrEquiv1 dot_S4000x128_S128x128_S4000x128_1_0_0_1_n_n 128 rfl rfl).symm]
  refine Finset.sum_congr rfl fun k _ => ?_
  have hk := contrEquiv1_symm_val dot_S4000x128_S128x128_S4000x128_1_0_0_1_n_n 128 rfl rfl k
  have el : dot_S4000x128_S128x128_S4000x128_1_0_0_1_n_n.lhsIdx (ix2 p q) ((contrEquiv1 dot_S4000x128_S128x128_S4000x128_1_0_0_1_n_n 128 rfl rfl).symm k) = ix2 p k := funext fun a => Fin.ext (by
    match a with
    | ⟨0, _⟩ => exact lhs_row _ _
    | ⟨1, _⟩ => exact (lhs_col _ _).trans hk)
  have er : dot_S4000x128_S128x128_S4000x128_1_0_0_1_n_n.rhsIdx (ix2 p q) ((contrEquiv1 dot_S4000x128_S128x128_S4000x128_1_0_0_1_n_n 128 rfl rfl).symm k) = ix2 k q := funext fun a => Fin.ext (by
    match a with
    | ⟨0, _⟩ => exact (rhs_row _ _).trans hk
    | ⟨1, _⟩ => exact rhs_col _ _)
  rw [el, er]

end Cert.KernelIdeal.TileProduct

end
-- ==== Proof.TileValue.lean ====
/-
  What the kernel stores for one tile, read at an entry.

  The body loads a tile of 4000 node rows, the matching tile of the neighbour aggregate, both weights whole and both
  biases as one row of 128, and stores one value for the whole tile: `leaky ((2 · x + a) · W₁ + b₁) · W₂ + b₂`, the
  products taken in a narrower float format. On the extended reals the narrowing is the identity, a product into the zero
  accumulator is the plain sum over the hidden coordinate, and a one-row bias broadcast over the tile reads its one
  row. So entry `(p, q)` of the stored value is the perceptron of row `p` of `2 · x + a` at `q`.
-/
import proofs.«106340_j20005957664841_1_alg».proof.Proof.Gen.KernelIdeal.Skeleton
import proofs.«106340_j20005957664841_1_alg».proof.Proof.TileProduct
import proofs.«106340_j20005957664841_1_alg».proof.Proof.Layers
import Idealize.ShloMosaic.Lib.ValueLayout

noncomputable section

open scoped BigOperators

namespace Cert.KernelIdeal.TileValue

open Cert.KernelIdeal Cert.KernelIdeal.Gen Cert.KernelIdeal.TileProduct Idealize.ShloMosaic Idealize.ShloMosaic.ValueIdx
open Cert.NodeUpdate

/-- THE STORED VALUE AT AN ENTRY: the perceptron of the tile's row `p` of `2 · x + a`, at coordinate `q`. -/
theorem stored_apply (x a : Vec Ideal S4000x128 .f32) (W₁ : Vec Ideal S128x128 .f32) (b₁ : Vec Ideal S1x128 .f32)
    (W₂ : Vec Ideal S128x128 .f32) (b₂ : Vec Ideal S1x128 .f32) (p : Fin 4000) (q : Fin 128) :
    k0_pay1 (F := Ideal) x a W₁ b₁ W₂ b₂ (ix2 p q)
      = perceptron W₁ (fun k => b₁ (ix2 (0 : Fin 1) k)) W₂ (fun k => b₂ (ix2 (0 : Fin 1) k)) (combine (n := 4000) x a p) q := by
  unfold k0_pay1
  simp only [addf_apply, mulf_apply, product_apply, truncf_apply, select_apply, cmpf_apply, broadcast_apply,
    broadcastTo_1b_ab_apply, shapeCast_self]
  rfl

end Cert.KernelIdeal.TileValue

end
-- ==== Proof.Aggregate.lean ====
/-
  The arrays the kernel's region finds that are not arguments: the neighbour aggregate and the two bias rows.

  Before the region the host forms the neighbour aggregate: the source indices made non-negative (a negative index
  counts from the end), the source nodes' rows gathered, the edges' rows added, and the sums scattered into the
  destination nodes' rows of a zero array. It is kept as ONE definition of the four arguments it depends on and is
  never opened: the reference forms it by the same operations. Each bias vector is laid out as a `[1, 128]` row; entry
  `(0, k)` of the row is the vector's `k`-th entry, the two having the same row-major position.
-/
import proofs.«106340_j20005957664841_1_alg».proof.Proof.Gen.KernelIdeal.Frame
import Idealize.ShloMosaic.Lib.Pipeline.Value
import Idealize.ShloMosaic.Lib.StableHlo.Run
import Idealize.ShloMosaic.Lib.ValueIdx

noncomputable section

namespace Cert.KernelIdeal.Tiles

open Cert.KernelIdeal Cert.KernelIdeal.Gen
open Idealize.ShloMosaic Idealize.ShloMosaic.TcCoe Idealize.SL.Sem Idealize.ShloMosaic.StableHlo Idealize.ShloMosaic.ValueIdx

/-! ## The neighbour aggregate -/

/-- The neighbour aggregate, as the host operations spell it: the source indices made non-negative (a negative index
    counts from the end), the source rows gathered, the edge features added, and the sum scattered into the destination
    rows of a zero array. -/
def aggregate {F : FTy → Type} [FloatOps F] (x : (⟨S100000x128, .f32⟩ : BufTy).Contents (Elt F)) (e : (⟨S600000x128, .f32⟩ : BufTy).Contents (Elt F))
    (src dst : (⟨S600000, .i32⟩ : BufTy).Contents (Elt F)) : (⟨S100000x128, .f32⟩ : BufTy).Contents (Elt F) :=
  Host.scatterAdd scatter_S100000x128_S600000x1_S600000x128_1_0_0_1
    (broadcastInDim S100000x128 ![] bcast_S_S100000x128 (constant S_ .f32 0x00000000#32))
    (broadcastInDim S600000x1 ![0] bcast_S600000_S600000x1_0 dst)
    (addf
      (Host.gather gather_S100000x128_S600000x1_S600000x128_1_0_n_n_0_1_1128 x
        (broadcastInDim S600000x1 ![0] bcast_S600000_S600000x1_0
          (select (cmpi .slt src (broadcastInDim S600000 ![] bcast_S_S600000 (constantI S_ 32 0#32)))
            (addi src (broadcastInDim S600000 ![] bcast_S_S600000 (constantI S_ 32 100000#32))) src)))
      e)

variable (m : (ℓ : Loc nD τ sig) → Buf (Elt Ideal) ℓ) (ρ : Dev nD → PrngReg)

/-! ## The arrays as the region finds them -/

/-- The second window's array is the aggregate of the arguments. -/
theorem found_aggregate (c : Dev nD) :
    (V m c main_v10 : S100000x128.Idx → EReal)
      = aggregate (F := Ideal) (m ((c : Thread nD τ).loc main_arg0)) (m ((c : Thread nD τ).loc main_arg1))
          (m ((c : Thread nD τ).loc main_arg2)) (m ((c : Thread nD τ).loc main_arg3)) := by
  dsimp only [Gen.V, Gen.hostOps0]
  after_results
  rfl

/-- The first bias row is the first bias vector laid out as `[1, 128]`. -/
theorem found_bias₁ (c : Dev nD) :
    (V m c main_v11 : S1x128.Idx → EReal) = shapeCast S1x128 (m ((c : Thread nD τ).loc main_arg5)) shapeCasts_S128_S1x128 := by
  dsimp only [Gen.V, Gen.hostOps0]
  after_results
  rfl

/-- The second bias row likewise. -/
theorem found_bias₂ (c : Dev nD) :
    (V m c main_v12 : S1x128.Idx → EReal) = shapeCast S1x128 (m ((c : Thread nD τ).loc main_arg7)) shapeCasts_S128_S1x128 := by
  dsimp only [Gen.V, Gen.hostOps0]
  after_results
  rfl

/-- A vector of 128 laid out as one row reads, at `(0, k)`, its `k`-th entry: the two have the same row-major position. -/
theorem row_of_vector (v : S128.Idx → EReal) (k : Fin 128) :
    shapeCast S1x128 v shapeCasts_S128_S1x128 (ix2 (0 : Fin 1) k) = v (ix1 k) := by
  refine shapeCast_apply v shapeCasts_S128_S1x128 (ix2 (0 : Fin 1) k) (ix1 k) ?_
  rw [Shape.rowMajor_val_one, Shape.rowMajor_val_two]
  show k.val = 0 * 128 + k.val
  omega

end Cert.KernelIdeal.Tiles

end
-- ==== Proof.Tiles.lean ====
/-
  From tiles to the whole array: the kernel's result is the node update of its arguments.

  The grid has 25 points. At point `t` the pipeline hands the body rows `4000 t … 4000 t + 3999` of the node features
  and of the neighbour aggregate, both weights whole, and both biases as their one row; the body's stored value is
  written back to the same rows of the result. Entry `(p, q)` of the stored value is the perceptron of the tile's row
  `p` of `2 · x + a`, which is row `4000 t + p` of the whole arrays: so what point `t` writes back is tile `t` of the
  node update of the arrays as the region finds them. The 25 tiles cover the 100000 rows (row `r` lies in tile
  `r / 4000`), hence the result array ends holding the node update everywhere.

  The arrays as the region finds them: the node features and the weights are the arguments untouched; the aggregate
  and the bias rows are read in Proof/Aggregate.lean.
-/
import proofs.«106340_j20005957664841_1_alg».proof.Proof.Gen.KernelIdeal.Value
import proofs.«106340_j20005957664841_1_alg».proof.Proof.TileValue
import proofs.«106340_j20005957664841_1_alg».proof.Proof.Aggregate
import Idealize.ShloMosaic.Lib.Pipeline.Value

noncomputable section

open scoped BigOperators

namespace Cert.KernelIdeal.Tiles

open Cert.KernelIdeal Cert.KernelIdeal.Gen Cert.KernelIdeal.Value Cert.KernelIdeal.TileValue
open Idealize.ShloMosaic Idealize.ShloMosaic.TcCoe Idealize.SL.Sem Idealize.ShloMosaic.StableHlo Idealize.ShloMosaic.ValueIdx
open Idealize.ShloMosaic.Pipeline (Dat)
open Cert.NodeUpdate

variable (m : (ℓ : Loc nD τ sig) → Buf (Elt Ideal) ℓ) (ρ : Dev nD → PrngReg)

/-! ## Each window's block at a point, as entries of its array -/

/-- The printed index maps, decided over the 25 points: the node, aggregate and result windows are at tile `(t, 0)`, the
    weights and the bias rows at block `(0, 0)`. -/
theorem tile_index : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = t.val ∧ win0_6.index t (1 : Fin 2) = 0) :=
  (by decide +kernel : ∀ t : Fin grid0.N, _)

/-- The node tile at point `t` is rows `4000 t …` of the node features. -/
theorem node_tile (c : Dev nD) (t : Fin cfg0.N) (y : S4000x128.Idx) (i : S100000x128.Idx)
    (h0 : (i 0).val = 4000 * t.val + (y 0).val) (h1 : (i 1).val = (y 1).val) :
    (iblk m c 0 t : Vec Ideal S4000x128 .f32) y = (V m c main_arg0 : S100000x128.Idx → EReal) i := by
  obtain ⟨⟨e0, e1⟩, -⟩ := tile_index t
  unfold iblk
  rw [View.read_apply]
  show V m c main_arg0 _ = V m c main_arg0 _
  congr 1
  funext a
  apply Fin.ext
  match a with
  | ⟨0, _⟩ => show win0_0.index t (0 : Fin 2) * 4000 + 1 * (y 0).val = (i 0).val; rw [e0, h0]; omega
  | ⟨1, _⟩ => show win0_0.index t (1 : Fin 2) * 128 + 1 * (y 1).val = (i 1).val; rw [e1, h1]; omega

/-- The aggregate tile at point `t` is the same rows of the aggregate. -/
theorem aggregate_tile (c : Dev nD) (t : Fin cfg0.N) (y : S4000x128.Idx) (i : S100000x128.Idx)
    (h0 : (i 0).val = 4000 * t.val + (y 0).val) (h1 : (i 1).val = (y 1).val) :
    (iblk m c 1 t : Vec Ideal S4000x128 .f32) y = (V m c main_v10 : S100000x128.Idx → EReal) i := by
  obtain ⟨-, ⟨e0, e1⟩, -⟩ := tile_index t
  unfold iblk
  rw [View.read_apply]
  show V m c main_v10 _ = V m c main_v10 _
  congr 1
  funext a
  apply Fin.ext
  match a with
  | ⟨0, _⟩ => show win0_1.index t (0 : Fin 2) * 4000 + 1 * (y 0).val = (i 0).val; rw [e0, h0]; omega
  | ⟨1, _⟩ => show win0_1.index t (1 : Fin 2) * 128 + 1 * (y 1).val = (i 1).val; rw [e1, h1]; omega

/-- The first weight's block is the weight, at every point. -/
theorem weight₁_block (c : Dev nD) (t : Fin cfg0.N) (y : S128x128.Idx) :
    (iblk m c 2 t : Vec Ideal S128x128 .f32) y = (V m c main_arg4 : S128x128.Idx → EReal) y := by
  obtain ⟨-, -, ⟨e0, e1⟩, -⟩ := tile_index t
  unfold iblk
  rw [View.read_apply]
  show V m c main_arg4 _ = V m c main_arg4 _
  congr 1
  funext a
  apply Fin.ext
  match a with
  | ⟨0, _⟩ => show win0_2.index t (0 : Fin 2) * 128 + 1 * (y 0).val = (y 0).val; rw [e0]; omega
  | ⟨1, _⟩ => show win0_2.index t (1 : Fin 2) * 128 + 1 * (y 1).val = (y 1).val; rw [e1]; omega

/-- The first bias row's block is the row. -/
theorem bias₁_block (c : Dev nD) (t : Fin cfg0.N) (y : S1x128.Idx) :
    (iblk m c 3 t : Vec Ideal S1x128 .f32) y = (V m c main_v11 : S1x128.Idx → EReal) y := by
  obtain ⟨-, -, -, ⟨e0, e1⟩, -⟩ := tile_index t
  unfold iblk
  rw [View.read_apply]
  show V m c main_v11 _ = V m c main_v11 _
  congr 1
  funext a
  apply Fin.ext
  match a with
  | ⟨0, _⟩ => show win0_3.index t (0 : Fin 2) * 1 + 1 * (y 0).val = (y 0).val; rw [e0]; omega
  | ⟨1, _⟩ => show win0_3.index t (1 : Fin 2) * 128 + 1 * (y 1).val = (y 1).val; rw [e1]; omega

/-- The second weight's block is the weight. -/
theorem weight₂_block (c : Dev nD) (t : Fin cfg0.N) (y : S128x128.Idx) :
    (iblk m c 4 t : Vec Ideal S128x128 .f32) y = (V m c main_arg6 : S128x128.Idx → EReal) y := by
  obtain ⟨-, -, -, -, ⟨e0, e1⟩, -⟩ := tile_index t
  unfold iblk
  rw [View.read_apply]
  show V m c main_arg6 _ = V m c main_arg6 _
  congr 1
  funext a
  apply Fin.ext
  match a with
  | ⟨0, _⟩ => show win0_4.index t (0 : Fin 2) * 128 + 1 * (y 0).val = (y 0).val; rw [e0]; omega
  | ⟨1, _⟩ => show win0_4.index t (1 : Fin 2) * 128 + 1 * (y 1).val = (y 1).val; rw [e1]; omega

/-- The second bias row's block is the row. -/
theorem bias₂_block (c : Dev nD) (t : Fin cfg0.N) (y : S1x128.Idx) :
    (iblk m c 5 t : Vec Ideal S1x128 .f32) y = (V m c main_v12 : S1x128.Idx → EReal) y := by
  obtain ⟨-, -, -, -, -, ⟨e0, e1⟩, -⟩ := tile_index t
  unfold iblk
  rw [View.read_apply]
  show V m c main_v12 _ = V m c main_v12 _
  congr 1
  funext a
  apply Fin.ext
  match a with
  | ⟨0, _⟩ => show win0_5.index t (0 : Fin 2) * 1 + 1 * (y 0).val = (y 0).val; rw [e0]; omega
  | ⟨1, _⟩ => show win0_5.index t (1 : Fin 2) * 128 + 1 * (y 1).val = (y 1).val; rw [e1]; omega

/-! ## What a point writes back -/

theorem origin : (![0, 0] : Fin 2 → Nat) = fun _ => 0 := funext fun a => by fin_cases a <;> rfl

/-- The node update of the arrays as the region finds them. -/
abbrev found_update (c : Dev nD) : S100000x128.Idx → EReal :=
  update (n := 100000) (V m c main_arg0) (V m c main_v10) (V m c main_arg4) (fun k => (V m c main_v11 : S1x128.Idx → EReal) (ix2 (0 : Fin 1) k))
    (V m c main_arg6) (fun k => (V m c main_v12 : S1x128.Idx → EReal) (ix2 (0 : Fin 1) k))

/-- WHAT POINT `t` WRITES BACK is tile `t` of the node update of the arrays as the region finds them. -/
theorem written_back (c : Dev nD) (t : Fin cfg0.N) :
    (dats m 0 c).flushed 6 t = ((cfg0.win 6).blk t).view.read (Elt Ideal) (found_update m c) := by
  rw [flushed6]
  unfold out0_6
  rw [View.canon_unit_zero origin]
  simp only [View.ld_unit_zero (S := S4000x128) origin, View.ld_unit_zero (S := S128x128) origin, View.ld_unit_zero (S := S1x128) origin]
  obtain ⟨-, -, -, -, -, -, ⟨e0, e1⟩⟩ := tile_index t
  funext j
  obtain ⟨p, q, rfl⟩ : ∃ (p : Fin 4000) (q : Fin 128), j = ix2 p q := ⟨j 0, j 1, eq_ix2 j⟩
  show k0_pay1 (F := Ideal) (iblk m c 0 t) (iblk m c 1 t) (iblk m c 2 t) (iblk m c 3 t) (iblk m c 4 t) (iblk m c 5 t) (ix2 p q)
    = found_update m c (((cfg0.win 6).blk t).view.emb (ix2 p q))
  refine (stored_apply (iblk m c 0 t) (iblk m c 1 t) (iblk m c 2 t) (iblk m c 3 t) (iblk m c 4 t) (iblk m c 5 t) p q).trans ?_
  have hrow : ((((cfg0.win 6).blk t).view.emb (ix2 p q)) 0).val = 4000 * t.val + p.val := by
    show win0_6.index t (0 : Fin 2) * 4000 + 1 * p.val = _
    rw [e0]; omega
  have hcol : ((((cfg0.win 6).blk t).view.emb (ix2 p q)) 1).val = q.val := by
    show win0_6.index t (1 : Fin 2) * 128 + 1 * q.val = _
    rw [e1]; omega
  show perceptron _ _ _ _ _ q = perceptron _ _ _ _ (combine (n := 100000) (V m c main_arg0) (V m c main_v10) ((((cfg0.win 6).blk t).view.emb (ix2 p q)) 0)) ((((cfg0.win 6).blk t).view.emb (ix2 p q)) 1)
  refine perceptron_congr (fun i => weight₁_block m c t i) (fun k => bias₁_block m c t (ix2 (0 : Fin 1) k))
    (fun i => weight₂_block m c t i) (fun k => bias₂_block m c t (ix2 (0 : Fin 1) k)) (fun k => ?_) (Fin.ext hcol.symm)
  unfold combine
  rw [node_tile m c t (ix2 p k) (ix2 ((((cfg0.win 6).blk t).view.emb (ix2 p q)) 0) k) hrow rfl,
    aggregate_tile m c t (ix2 p k) (ix2 ((((cfg0.win 6).blk t).view.emb (ix2 p q)) 0) k) hrow rfl]

/-! ## The tiles cover the array -/

/-- An entry is in point `t`'s tile iff each coordinate is in the tile's range on its axis. -/
theorem mem_tile (t : Fin cfg0.N) (i : S100000x128.Idx) :
    i ∈ ((cfg0.win 6).blk t).view.set ↔ ∀ a : Fin 2, win0_6.index t a * S4000x128.size a ≤ (i a).val ∧ (i a).val < win0_6.index t a * S4000x128.size a + S4000x128.size a := by
  show i ∈ ((View.whole main_v13).slice (win0_6.rect t)).set ↔ _
  rw [View.set_slice_whole, Rect.mem_set_unit]
  exact Iff.rfl

/-- Row `r` lies in tile `r / 4000`, which is written back. -/
theorem covered (i : S100000x128.Idx) : ∃ t : Fin cfg0.N, (cfg0.win 6).flush t = true ∧ i ∈ ((cfg0.win 6).blk t).view.set := by
  have hi0 : (i 0).val < 100000 := (i 0).isLt
  have hi1 : (i 1).val < 128 := (i 1).isLt
  have hlt : (i 0).val / 4000 < cfg0.N := by rw [show cfg0.N = 25 from N_0]; omega
  obtain ⟨-, -, -, -, -, -, ⟨e0, e1⟩⟩ := tile_index ⟨(i 0).val / 4000, hlt⟩
  refine ⟨⟨(i 0).val / 4000, hlt⟩, flush0_6 _, ?_⟩
  rw [mem_tile]
  intro a
  match a with
  | ⟨0, _⟩ =>
    show win0_6.index ⟨(i 0).val / 4000, hlt⟩ (0 : Fin 2) * 4000 ≤ (i 0).val ∧ (i 0).val < win0_6.index ⟨(i 0).val / 4000, hlt⟩ (0 : Fin 2) * 4000 + 4000
    rw [e0]; show (i 0).val / 4000 * 4000 ≤ (i 0).val ∧ (i 0).val < (i 0).val / 4000 * 4000 + 4000; omega
  | ⟨1, _⟩ =>
    show win0_6.index ⟨(i 0).val / 4000, hlt⟩ (1 : Fin 2) * 128 ≤ (i 1).val ∧ (i 1).val < win0_6.index ⟨(i 0).val / 4000, hlt⟩ (1 : Fin 2) * 128 + 128
    rw [e1]; omega

/-! ## The result array, and the run -/

/-- The result array ends holding the node update of the arrays as the region finds them. -/
theorem result_found (c : Dev nD) : (dats m 0 c).arrAt 6 cfg0.N = found_update m c :=
  (dats m 0 c).arrAt_eq_of_cover 6 (found_update m c) (fun t _ => written_back m c t) covered

/-- THE NODE UPDATE OF THE ARGUMENTS: node features, aggregate of the arguments, weights and bias vectors. -/
abbrev result (c : Dev nD) : S100000x128.Idx → EReal :=
  update (n := 100000) (m ((c : Thread nD τ).loc main_arg0))
    (aggregate (F := Ideal) (m ((c : Thread nD τ).loc main_arg0)) (m ((c : Thread nD τ).loc main_arg1)) (m ((c : Thread nD τ).loc main_arg2)) (m ((c : Thread nD τ).loc main_arg3)))
    (m ((c : Thread nD τ).loc main_arg4)) (fun k => (m ((c : Thread nD τ).loc main_arg5) : S128.Idx → EReal) (ix1 k))
    (m ((c : Thread nD τ).loc main_arg6)) (fun k => (m ((c : Thread nD τ).loc main_arg7) : S128.Idx → EReal) (ix1 k))

/-- What the region finds is the arguments, the aggregate of the arguments, and the bias vectors as rows. -/
theorem found_update_eq (c : Dev nD) : found_update m c = result m c := by
  funext i
  show perceptron _ _ _ _ (combine (n := 100000) (V m c main_arg0) (V m c main_v10) (i 0)) (i 1)
    = perceptron _ _ _ _ (combine (n := 100000) (m ((c : Thread nD τ).loc main_arg0))
        (aggregate (F := Ideal) (m ((c : Thread nD τ).loc main_arg0)) (m ((c : Thread nD τ).loc main_arg1)) (m ((c : Thread nD τ).loc main_arg2)) (m ((c : Thread nD τ).loc main_arg3))) (i 0)) (i 1)
  refine perceptron_congr (fun j => congrFun (V_main_arg4 m c) j)
    (fun k => (congrFun (found_bias₁ m c) (ix2 (0 : Fin 1) k)).trans (row_of_vector _ k))
    (fun j => congrFun (V_main_arg6 m c) j)
    (fun k => (congrFun (found_bias₂ m c) (ix2 (0 : Fin 1) k)).trans (row_of_vector _ k))
    (fun k => ?_) rfl
  unfold combine
  rw [V_main_arg0, found_aggregate]

/-- THE KERNEL'S RUN, READ: the result array at the node update of the arguments, the arguments unchanged. -/
theorem run : θ_run defs (onTc (τ := τ) (main (F := Ideal))) ⟨m, fun _ => 0, ρ⟩ fun r => ∀ c : Dev nD,
      r.2.mem ((c : Thread nD τ).loc main_v13) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨((h c).1.trans (result_found m c)).trans (found_update_eq m c), (h c).2⟩)
    (run_blocks m ρ)

end Cert.KernelIdeal.Tiles

end
-- ==== Proof.lean ====
/-
  A graph-isomorphism layer computed in row tiles equals the layer computed on whole arrays, over the extended reals.

  Both programs first form the neighbour aggregate `a` on the host, by the same operations: for every edge the source
  node's feature row plus the edge's feature row, summed into the destination node's row. Then
      out = leaky ((2 · x + a) · W₁ + b₁) · W₂ + b₂,
  the reference with two whole-array matrix products, the kernel tile by tile (25 tiles of 4000 rows), each tile's two
  products taken in a narrower float format into a zero accumulator.

  On the extended reals a change of float format is the identity and either kind of matrix product, read at an entry, is
  the plain sum over the 128 hidden coordinates; an output row depends on its own input row only. So both results are
  ONE function of the arguments, the node update (Proof/Layers.lean): the reference's last stage is it
  (Proof/ReferenceLayers.lean), each tile the kernel writes back is the matching tile of it, and the tiles cover the
  array (Proof/TileProduct.lean, Proof/TileValue.lean, Proof/Tiles.lean). No law of arithmetic beyond `0 + s = s` is
  used, so the precondition (finite inputs) is never opened; the aggregate is never opened either, being the same term
  of the arguments on both sides. The three frames are the generated frame runs; the idealization rewrote nothing.
-/
import proofs.«106340_j20005957664841_1_alg».proof.Defs
import proofs.«106340_j20005957664841_1_alg».proof.Proof.Gen.Kernel
import proofs.«106340_j20005957664841_1_alg».proof.Proof.Gen.Kernel.Skeleton
import proofs.«106340_j20005957664841_1_alg».proof.Proof.Gen.Kernel.Launch
import proofs.«106340_j20005957664841_1_alg».proof.Proof.Gen.Kernel.Points
import proofs.«106340_j20005957664841_1_alg».proof.Proof.Gen.Kernel.Frame
import proofs.«106340_j20005957664841_1_alg».proof.Proof.Gen.KernelIdeal
import proofs.«106340_j20005957664841_1_alg».proof.Proof.Gen.KernelIdeal.Skeleton
import proofs.«106340_j20005957664841_1_alg».proof.Proof.Gen.KernelIdeal.Launch
import proofs.«106340_j20005957664841_1_alg».proof.Proof.Gen.KernelIdeal.Points
import proofs.«106340_j20005957664841_1_alg».proof.Proof.Gen.KernelIdeal.Frame
import proofs.«106340_j20005957664841_1_alg».proof.Proof.Gen.ReferenceIdeal
import proofs.«106340_j20005957664841_1_alg».proof.Proof.Gen.Pre_finite_inputs
import proofs.«106340_j20005957664841_1_alg».proof.Proof.Gen.KernelIdeal.Value
import proofs.«106340_j20005957664841_1_alg».proof.Proof.Gen.ReferenceIdeal.Run
import proofs.«106340_j20005957664841_1_alg».proof.Proof.Gen.ReferenceIdeal.Read
import proofs.«106340_j20005957664841_1_alg».proof.Proof.ReferenceLayers
import proofs.«106340_j20005957664841_1_alg».proof.Proof.Tiles
import Idealize.ShloMosaic.Adequacy
import Idealize.ShloMosaic.Init

noncomputable section

namespace Cert.Proof

open Idealize.ShloMosaic Idealize.SL.Sem

/-- The word-level kernel runs and leaves its arguments alone: the generated frame run. -/
theorem frame_kernel : Cert.frame_Kernel := fun m ρ _ => Cert.Kernel.Gen.frame m ρ

/-- So does the idealized kernel. -/
theorem frame_kernel_ideal : Cert.frame_KernelIdeal := fun m ρ _ => Cert.KernelIdeal.Gen.frame m ρ

/-- The reference is host operations only: its generated run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The reference's scatter-add stage is the kernel's neighbour aggregate: the same host operations of the same arguments. -/
theorem aggregate_eq (x : Cert.KernelIdeal.S100000x128.Idx → EReal) (e : Cert.KernelIdeal.S600000x128.Idx → EReal)
    (src dst : Cert.KernelIdeal.S600000.Idx → BitVec 32) :
    Cert.ReferenceIdeal.Read.val_main_v10 (F := Ideal) x e src dst = Cert.KernelIdeal.Tiles.aggregate (F := Ideal) x e src dst := rfl

/-- Both programs end with the node update of their arguments; the arguments agree. -/
theorem algebraic : Cert.algebraic_KernelIdeal_ReferenceIdeal := by
  intro m ρ m' ρ' _ hagree
  refine ⟨fun c => Cert.KernelIdeal.Tiles.result m c, Cert.KernelIdeal.Tiles.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7⟩ := hagree c
  rw [Cert.ReferenceIdeal.Read.val_main_v26_eq, Cert.ReferenceIdeal.Layers.result_eq_update, aggregate_eq,
    a0, a1, a2, a3, a4, a5, a6, a7]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
